-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1000x64 : Shape := ⟨3, ![256, 1000, 64]⟩
abbrev S576x256 : Shape := ⟨2, ![576, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1000x64 : S_.BroadcastsInDim S256x1000x64 (![] : Fin 0 → Fin S256x1000x64.rank)
  reducesTo_S256x1000x64_S_d0_1_2 : S256x1000x64.ReducesTo [0, 1, 2] S_
  bcast_S_S576x256 : S_.BroadcastsInDim S576x256 (![] : Fin 0 → Fin S576x256.rank)
  reducesTo_S576x256_S_d0_1 : S576x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S256x512 .f32) (main_arg1 : FVec F S256x1000x64 .f32) (main_arg2 : FVec F S576x256 .f32) (main_arg3 : FVec F S256 .f32) (main_arg4 : FVec F S256x128 .f32) (main_arg5 : FVec F S128 .f32) (main_arg6 : FVec F S128x1 .f32) (main_arg7 : FVec F S1 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1000x64 .f32 := Host.absf main_arg1
  let main_cst_0 : FVec F S_ .f32 := constant S_ .f32 0x7F800000#32
  let main_v5 : FVec F S256x1000x64 .f32 := broadcastInDim S256x1000x64 ![] bcast_S_S256x1000x64 main_cst_0
  let main_v6 : IVec S256x1000x64 1 := cmpf .olt main_v4 main_v5
  let main_c_1 : IVec S_ 1 := constantI S_ 1 1#1
  let main_v7 : IVec S_ 1 := (fun x v => Host.reduce IntOp.andi x v reducesTo_S256x1000x64_S_d0_1_2 h_S_) main_v6 main_c_1
  let main_v8 : IVec S_ 1 := andi main_v3 main_v7
  let main_v9 : FVec F S576x256 .f32 := Host.absf main_arg2
  let main_cst_2 : FVec F S_ .f32 := constant S_ .f32 0x7F800000#32
  let main_v10 : FVec F S576x256 .f32 := broadcastInDim S576x256 ![] bcast_S_S576x256 main_cst_2
  let main_v11 : IVec S576x256 1 := cmpf .olt main_v9 main_v10
  let main_c_3 : IVec S_ 1 := constantI S_ 1 1#1
  let main_v12 : IVec S_ 1 := (fun x v => Host.reduce IntOp.andi x v reducesTo_S576x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S256x512 : Shape := ⟨2, ![256, 512]⟩
abbrev S256x1000x64 : Shape := ⟨3, ![256, 1000, 64]⟩
abbrev S576x256 : Shape := ⟨2, ![576, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S512x256 : Shape := ⟨2, ![512, 256]⟩
abbrev S64x256 : Shape := ⟨2, ![64, 256]⟩
abbrev S_ : Shape := ⟨0, ![]⟩
abbrev S256x1024x64 : Shape := ⟨3, ![256, 1024, 64]⟩
abbrev S1x256 : Shape := ⟨2, ![1, 256]⟩
abbrev S1x128 : Shape := ⟨2, ![1, 128]⟩
abbrev S1x1 : Shape := ⟨2, ![1, 1]⟩
abbrev S256x1024 : Shape := ⟨2, ![256, 1024]⟩
abbrev S32x512 : Shape := ⟨2, ![32, 512]⟩
abbrev S32x128x64 : Shape := ⟨3, ![32, 128, 64]⟩
abbrev S32x128 : Shape := ⟨2, ![32, 128]⟩
abbrev S32x256 : Shape := ⟨2, ![32, 256]⟩
abbrev S4096x64 : Shape := ⟨2, ![4096, 64]⟩
abbrev S4096x256 : Shape := ⟨2, ![4096, 256]⟩
abbrev S32x128x256 : Shape := ⟨3, ![32, 128, 256]⟩
abbrev S1x1x256 : Shape := ⟨3, ![1, 1, 256]⟩
abbrev S32x1x256 : Shape := ⟨3, ![32, 1, 256]⟩
abbrev S4096x128 : Shape := ⟨2, ![4096, 128]⟩
abbrev S32x128x128 : Shape := ⟨3, ![32, 128, 128]⟩
abbrev S1x1x128 : Shape := ⟨3, ![1, 1, 128]⟩
abbrev S32x128x1 : Shape := ⟨3, ![32, 128, 1]⟩
abbrev S256x1000 : Shape := ⟨2, ![256, 1000]⟩

abbrev nBuf : Space → Nat
  | .hbm => 20
  | .vmem => 13
  | .smem => 0
  | _ => 0

abbrev bufTy : (tb : Table) → Fin (tcTables nBuf tb) → BufTy
  | .hbm, ⟨0, _⟩ => ⟨S256x512, .f32⟩
  | .hbm, ⟨1, _⟩ => ⟨S256x1000x64, .f32⟩
  | .hbm, ⟨2, _⟩ => ⟨S576x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S512x256, .f32⟩
  | .hbm, ⟨9, _⟩ => ⟨S64x256, .f32⟩
  | .hbm, ⟨10, _⟩ => ⟨S_, .i32⟩
  | .hbm, ⟨11, _⟩ => ⟨S_, .f32⟩
  | .hbm, ⟨12, _⟩ => ⟨S256x1024x64, .f32⟩
  | .hbm, ⟨13, _⟩ => ⟨S1x256, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S1x1, .f32⟩
  | .hbm, ⟨18, _⟩ => ⟨S256x1024, .f32⟩
  | .hbm, ⟨19, _⟩ => ⟨S256x1000, .f32⟩
  | .local _ .vmem, ⟨0, _⟩ => ⟨S32x512, .f32⟩
  | .local _ .vmem, ⟨1, _⟩ => ⟨S32x512, .f32⟩
  | .local _ .vmem, ⟨2, _⟩ => ⟨S32x128x64, .f32⟩
  | .local _ .vmem, ⟨3, _⟩ => ⟨S32x128x64, .f32⟩
  | .local _ .vmem, ⟨4, _⟩ => ⟨S512x256, .f32⟩
  | .local _ .vmem, ⟨5, _⟩ => ⟨S64x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x1, .f32⟩
  | .local _ .vmem, ⟨11, _⟩ => ⟨S32x128, .f32⟩
  | .local _ .vmem, ⟨12, _⟩ => ⟨S32x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S576x256_S512x256_0_0 : S576x256.Slices ![0, 0] S512x256
  slices_S576x256_S64x256_512_0 : S576x256.Slices ![512, 0] S64x256
  pads_S256x1000x64_S256x1024x64_000_0240_000 : S256x1000x64.Pads (![0, 0, 0] : Fin 3 → Nat) ![0, 24, 0] ![0, 0, 0] S256x1024x64
  h_S_ : 0 < S_.numel
  shapeCasts_S256_S1x256 : S256.ShapeCasts S1x256
  shapeCasts_S128_S1x128 : S128.ShapeCasts S1x128
  shapeCasts_S128x1_S128 : S128x1.ShapeCasts S128
  shapeCasts_S1_S1x1 : S1.ShapeCasts S1x1
  inb_S32x512_S32x512_0_0 : ∀ a, (![0, 0] : Fin 2 → Nat) a + S32x512.size a ≤ S32x512.size a
  h_S32x512 : 0 < S32x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  shapeCasts_S32x128x64_S4096x64 : S32x128x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S4096x256_S32x128x256 : S4096x256.ShapeCasts S32x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  shapeCasts_S32x256_S32x1x256 : S32x256.ShapeCasts S32x1x256
  broadcasts_S32x1x256_S32x128x256 : S32x1x256.Broadcasts S32x128x256
  broadcasts_S1x1x256_S32x128x256 : S1x1x256.Broadcasts S32x128x256
  shapeCasts_S32x128x256_S4096x256 : S32x128x256.ShapeCasts S4096x256
  inb_S256x128_S256x128_0_0 : ∀ a, (![0, 0] : Fin 2 → Nat) a + S256x128.size a ≤ S256x128.size a
  h_S256x128 : 0 < S256x128.numel
  shapeCasts_S4096x128_S32x128x128 : S4096x128.ShapeCasts S32x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S32x128x128 : S1x1x128.Broadcasts S32x128x128
  reduces_S32x128x128_S32x128 : S32x128x128.Reduces [2] S32x128
  shapeCasts_S32x128_S32x128x1 : S32x128.ShapeCasts S32x128x1
  shapeCasts_S32x128x1_S32x128 : S32x128x1.ShapeCasts S32x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x128 : S1x1.Broadcasts S32x128
  inb_S32x128_S32x128_0_0 : ∀ a, (![0, 0] : Fin 2 → Nat) a + S32x128.size a ≤ S32x128.size a
  h_S32x128 : 0 < S32x128.numel
  slices_S256x1024_S256x1000_0_0 : S256x1024.Slices ![0, 0] S256x1000
  dot_S32x512_S512x256_S32x256_1_0_0_1_n_n_wf : DotDims.WF S32x512 S512x256 S32x256 [1] [0] [0] [1] [] []
  dot_S4096x64_S64x256_S4096x256_1_0_0_1_n_n_wf : DotDims.WF S4096x64 S64x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x64.size a ≤ S256x1024x64.size a
  hwx0_1 : ∀ i : grid0.Coords, EltTy.bits .f32 = 32 ∨ (Rect.block (s := S256x1024x64) S32x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S256x1024.size a
  hwx0_9 : ∀ i : grid0.Coords, EltTy.bits .f32 = 32 ∨ (Rect.block (s := S256x1024) S32x128.size (cc0_transform_9 i) (hinb0_9 i)).WholeWords (EltTy.packing .f32)

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x512 : Shape := ⟨2, ![256, 512]⟩
abbrev S256x1000x64 : Shape := ⟨3, ![256, 1000, 64]⟩
abbrev S576x256 : Shape := ⟨2, ![576, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S512x256 : Shape := ⟨2, ![512, 256]⟩
abbrev S64x256 : Shape := ⟨2, ![64, 256]⟩
abbrev S256x256 : Shape := ⟨2, ![256, 256]⟩
abbrev S256x1000x256 : Shape := ⟨3, ![256, 1000, 256]⟩
abbrev S256x1x256 : Shape := ⟨3, ![256, 1, 256]⟩
abbrev S1x1x256 : Shape := ⟨3, ![1, 1, 256]⟩
abbrev S_ : Shape := ⟨0, ![]⟩
abbrev S256x1000x128 : Shape := ⟨3, ![256, 1000, 128]⟩
abbrev S1x1x128 : Shape := ⟨3, ![1, 1, 128]⟩
abbrev S256x1000x1 : Shape := ⟨3, ![256, 1000, 1]⟩
abbrev S1x1x1 : Shape := ⟨3, ![1, 1, 1]⟩
abbrev S256x1000 : Shape := ⟨2, ![256, 1000]⟩

abbrev nBuf : Space → Nat
  | .hbm => 33
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x1000x64, .f32⟩
  | .hbm, ⟨2, _⟩ => ⟨S576x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S512x256, .f32⟩
  | .hbm, ⟨9, _⟩ => ⟨S64x256, .f32⟩
  | .hbm, ⟨10, _⟩ => ⟨S256x256, .f32⟩
  | .hbm, ⟨11, _⟩ => ⟨S256x1000x256, .f32⟩
  | .hbm, ⟨12, _⟩ => ⟨S256x1x256, .f32⟩
  | .hbm, ⟨13, _⟩ => ⟨S256x1000x256, .f32⟩
  | .hbm, ⟨14, _⟩ => ⟨S256x1000x256, .f32⟩
  | .hbm, ⟨15, _⟩ => ⟨S1x1x256, .f32⟩
  | .hbm, ⟨16, _⟩ => ⟨S256x1000x256, .f32⟩
  | .hbm, ⟨17, _⟩ => ⟨S256x1000x256, .f32⟩
  | .hbm, ⟨18, _⟩ => ⟨S_, .f32⟩
  | .hbm, ⟨19, _⟩ => ⟨S256x1000x256, .f32⟩
  | .hbm, ⟨20, _⟩ => ⟨S256x1000x256, .f32⟩
  | .hbm, ⟨21, _⟩ => ⟨S256x1000x128, .f32⟩
  | .hbm, ⟨22, _⟩ => ⟨S1x1x128, .f32⟩
  | .hbm, ⟨23, _⟩ => ⟨S256x1000x128, .f32⟩
  | .hbm, ⟨24, _⟩ => ⟨S256x1000x128, .f32⟩
  | .hbm, ⟨25, _⟩ => ⟨S_, .f32⟩
  | .hbm, ⟨26, _⟩ => ⟨S256x1000x128, .f32⟩
  | .hbm, ⟨27, _⟩ => ⟨S256x1000x128, .f32⟩
  | .hbm, ⟨28, _⟩ => ⟨S256x1000x1, .f32⟩
  | .hbm, ⟨29, _⟩ => ⟨S1x1x1, .f32⟩
  | .hbm, ⟨30, _⟩ => ⟨S256x1000x1, .f32⟩
  | .hbm, ⟨31, _⟩ => ⟨S256x1000x1, .f32⟩
  | .hbm, ⟨32, _⟩ => ⟨S256x1000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  slices_S576x256_S512x256_0_0 : S576x256.Slices ![0, 0] S512x256
  slices_S576x256_S64x256_512_0 : S576x256.Slices ![512, 0] S64x256
  bcast_S256x256_S256x1x256_0_2 : S256x256.BroadcastsInDim S256x1x256 (![0, 2] : Fin 2 → Fin S256x1x256.rank)
  bcast_S256x1x256_S256x1000x256_0_1_2 : S256x1x256.BroadcastsInDim S256x1000x256 (![0, 1, 2] : Fin 3 → Fin S256x1000x256.rank)
  bcast_S256_S1x1x256_2 : S256.BroadcastsInDim S1x1x256 (![2] : Fin 1 → Fin S1x1x256.rank)
  bcast_S1x1x256_S256x1000x256_0_1_2 : S1x1x256.BroadcastsInDim S256x1000x256 (![0, 1, 2] : Fin 3 → Fin S256x1000x256.rank)
  bcast_S_S256x1000x256 : S_.BroadcastsInDim S256x1000x256 (![] : Fin 0 → Fin S256x1000x256.rank)
  bcast_S128_S1x1x128_2 : S128.BroadcastsInDim S1x1x128 (![2] : Fin 1 → Fin S1x1x128.rank)
  bcast_S1x1x128_S256x1000x128_0_1_2 : S1x1x128.BroadcastsInDim S256x1000x128 (![0, 1, 2] : Fin 3 → Fin S256x1000x128.rank)
  bcast_S_S256x1000x128 : S_.BroadcastsInDim S256x1000x128 (![] : Fin 0 → Fin S256x1000x128.rank)
  bcast_S1_S1x1x1_2 : S1.BroadcastsInDim S1x1x1 (![2] : Fin 1 → Fin S1x1x1.rank)
  bcast_S1x1x1_S256x1000x1_0_1_2 : S1x1x1.BroadcastsInDim S256x1000x1 (![0, 1, 2] : Fin 3 → Fin S256x1000x1.rank)
  shapeCasts_S256x1000x1_S256x1000 : S256x1000x1.ShapeCasts S256x1000
  dot_S256x512_S512x256_S256x256_1_0_0_1_n_n_wf : DotDims.WF S256x512 S512x256 S256x256 [1] [0] [0] [1] [] []
  dot_S256x1000x64_S64x256_S256x1000x256_2_0_01_1_n_n_wf : DotDims.WF S256x1000x64 S64x256 S256x1000x256 [2] [0] [0, 1] [1] [] []
  dot_S256x1000x256_S256x128_S256x1000x128_2_0_01_1_n_n_wf : DotDims.WF S256x1000x256 S256x128 S256x1000x128 [2] [0] [0, 1] [1] [] []
  dot_S256x1000x128_S128x1_S256x1000x1_2_0_01_1_n_n_wf : DotDims.WF S256x1000x128 S128x1 S256x1000x1 [2] [0] [0, 1] [1] [] []

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x1000x64_S64x256_S256x1000x256_2_0_01_1_n_n : DotDims S256x1000x64 S64x256 S256x1000x256 where
  lhsContracting := [2]
  rhsContracting := [0]
  lhsNonContracting := [0, 1]
  rhsNonContracting := [1]
  lhsBatch := []
  rhsBatch := []
  wf := dot_S256x1000x64_S64x256_S256x1000x256_2_0_01_1_n_n_wf
def dot_S256x1000x256_S256x128_S256x1000x128_2_0_01_1_n_n : DotDims S256x1000x256 S256x128 S256x1000x128 where
  lhsContracting := [2]
  rhsContracting := [0]
  lhsNonContracting := [0, 1]
  rhsNonContracting := [1]
  lhsBatch := []
  rhsBatch := []
  wf := dot_S256x1000x256_S256x128_S256x1000x128_2_0_01_1_n_n_wf
def dot_S256x1000x128_S128x1_S256x1000x1_2_0_01_1_n_n : DotDims S256x1000x128 S128x1 S256x1000x1 where
  lhsContracting := [2]
  rhsContracting := [0]
  lhsNonContracting := [0, 1]
  rhsNonContracting := [1]
  lhsBatch := []
  rhsBatch := []
  wf := dot_S256x1000x128_S128x1_S256x1000x1_2_0_01_1_n_n_wf

class Facts : Prop extends Facts₀ where

variable [Facts]
-- ==== Proof.Spec.lean ====
/-
  The scoring network both programs compute, entry by entry, on the extended reals.

  For one batch row and one action the inputs are the row's state vector `st` (512 numbers), the action's
  feature vector `af` (64 numbers), and the weights.  The first layer's weight matrix has 576 rows: the first
  512 meet the state, the last 64 meet the action features.  With `relu x = max x 0`:

    hidden1 h = relu ((Σ_f af f · w1a f h  +  Σ_k st k · w1s k h)  +  b1 h)        (256 units)
    hidden2 g = relu ((Σ_h hidden1 h · w2 h g)  +  b2 g)                            (128 units)
    score     = (Σ_g hidden2 g · w3 g)  +  b3

  The association of the sums is the one both programs use, so no law of the extended reals beyond the
  definitions is needed to compare them.  `scores` is the whole result array, one score per (row, action).
-/
import Idealize.ShloMosaic.Lib.ValueIdx
import Idealize.ShloMosaic.PureOps.Ideal.Laws

noncomputable section

open scoped BigOperators

namespace Mlp

open Idealize.ShloMosaic Idealize.ShloMosaic.ValueIdx

/-- The floor of the rectifier: the float word of `+0.0`, kept as a word (both programs spell it so). -/
abbrev floor0 : EReal := Ideal.ofBits .f32 0x00000000#32

/-- One unit of the first hidden layer. -/
def hidden1 (st : Fin 512 → EReal) (af : Fin 64 → EReal) (w1s : Fin 512 → Fin 256 → EReal) (w1a : Fin 64 → Fin 256 → EReal)
    (b1 : Fin 256 → EReal) (h : Fin 256) : EReal :=
  max (((∑ f : Fin 64, af f * w1a f h) + (∑ k : Fin 512, st k * w1s k h)) + b1 h) floor0

/-- One unit of the second hidden layer, over the first layer's units `x`. -/
def hidden2 (x : Fin 256 → EReal) (w2 : Fin 256 → Fin 128 → EReal) (b2 : Fin 128 → EReal) (g : Fin 128) : EReal :=
  max ((∑ h : Fin 256, x h * w2 h g) + b2 g) floor0

/-- The output unit, over the second layer's units `y`. -/
def out3 (y : Fin 128 → EReal) (w3 : Fin 128 → EReal) (b3 : EReal) : EReal :=
  (∑ g : Fin 128, y g * w3 g) + b3

/-- The score of one action for one batch row. -/
def score (st : Fin 512 → EReal) (af : Fin 64 → EReal) (w1s : Fin 512 → Fin 256 → EReal) (w1a : Fin 64 → Fin 256 → EReal)
    (b1 : Fin 256 → EReal) (w2 : Fin 256 → Fin 128 → EReal) (b2 : Fin 128 → EReal) (w3 : Fin 128 → EReal) (b3 : EReal) : EReal :=
  out3 (hidden2 (hidden1 st af w1s w1a b1) w2 b2) w3 b3

/-- Row `512 + f` of the 576-row first-layer matrix: the part that meets the action features. -/
abbrev lowRow (f : Fin 64) : Fin 576 := ⟨512 + f.val, by omega⟩
/-- Row `k` of the 576-row first-layer matrix, `k < 512`: the part that meets the state. -/
abbrev topRow (k : Fin 512) : Fin 576 := ⟨k.val, by omega⟩

/-- The whole result: for `A` actions per row, the score of action `i 1` of row `i 0`, from the argument arrays. -/
def scores {A : Nat} (x0 : (⟨2, ![256, 512]⟩ : Shape).Idx → EReal) (x1 : (⟨3, ![256, A, 64]⟩ : Shape).Idx → EReal)
    (x2 : (⟨2, ![576, 256]⟩ : Shape).Idx → EReal) (x3 : (⟨1, ![256]⟩ : Shape).Idx → EReal)
    (x4 : (⟨2, ![256, 128]⟩ : Shape).Idx → EReal) (x5 : (⟨1, ![128]⟩ : Shape).Idx → EReal)
    (x6 : (⟨2, ![128, 1]⟩ : Shape).Idx → EReal) (x7 : (⟨1, ![1]⟩ : Shape).Idx → EReal) :
    (⟨2, ![256, A]⟩ : Shape).Idx → EReal := fun i =>
  score (fun k => x0 (ix2 (i 0) k)) (fun f => x1 (ix3 (i 0) (i 1) f))
    (fun k h => x2 (ix2 (topRow k) h)) (fun f h => x2 (ix2 (lowRow f) h))
    (fun h => x3 (ix1 h)) (fun h g => x4 (ix2 h g)) (fun g => x5 (ix1 g))
    (fun g => x6 (ix2 g 0)) (x7 (ix1 0))

end Mlp

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibFoldedRows.lean ====
/-
  Layout operations of a batched row-wise network, read at an index.

  A kernel that treats a [a, b, c] block as a·b rows of length c folds the two leading axes into one
  (row `p·b + q`), multiplies, and unfolds again; it adds a per-row [a, c] or a shared [1, c] vector by giving
  it unit axes and broadcasting; and it sums the last axis.  Each lemma reads one such operation at an index
  given by coordinates.  All are for any extents and any element type.
-/
import Idealize.ShloMosaic.Lib.Pipeline.Value
import Idealize.ShloMosaic.Lib.ValueIdx
import Idealize.ShloMosaic.PureOps.Ideal.Laws

noncomputable section

open scoped BigOperators

namespace FoldedRows

open Idealize.ShloMosaic Idealize.ShloMosaic.ValueIdx

variable {α : Type} {a b c n : Nat}

/-- Folding the two leading axes: row `r = p·b + q` of the [n, c] view is row (p, q) of the [a, b, c] array. -/
theorem fold_apply (x : (⟨3, ![a, b, c]⟩ : Shape).Idx → α) (h : (⟨3, ![a, b, c]⟩ : Shape).ShapeCasts ⟨2, ![n, c]⟩)
    (p : Fin a) (q : Fin b) (f : Fin c) (r : Fin n) (hr : r.val = p.val * b + q.val) :
    shapeCast ⟨2, ![n, c]⟩ x h (ix2 r f) = x (ix3 p q f) := by
  refine shapeCast_apply x h _ _ ?_
  rw [Shape.rowMajor_val_three, Shape.rowMajor_val_two]
  show (p.val * b + q.val) * c + f.val = r.val * c + f.val
  rw [hr]

/-- Unfolding: entry (p, q, f) of the [a, b, c] view is entry (p·b + q, f) of the [n, c] array. -/
theorem unfold_apply (x : (⟨2, ![n, c]⟩ : Shape).Idx → α) (h : (⟨2, ![n, c]⟩ : Shape).ShapeCasts ⟨3, ![a, b, c]⟩)
    (p : Fin a) (q : Fin b) (f : Fin c) (r : Fin n) (hr : r.val = p.val * b + q.val) :
    shapeCast ⟨3, ![a, b, c]⟩ x h (ix3 p q f) = x (ix2 r f) := by
  refine shapeCast_apply x h _ _ ?_
  rw [Shape.rowMajor_val_three, Shape.rowMajor_val_two]
  show r.val * c + f.val = (p.val * b + q.val) * c + f.val
  rw [hr]

/-- A per-row vector given a unit middle axis: entry (p, 0, f) of the [a, 1, c] view is entry (p, f). -/
theorem midUnit_apply (x : (⟨2, ![a, c]⟩ : Shape).Idx → α) (h : (⟨2, ![a, c]⟩ : Shape).ShapeCasts ⟨3, ![a, 1, c]⟩)
    (p : Fin a) (z : Fin 1) (f : Fin c) :
    shapeCast ⟨3, ![a, 1, c]⟩ x h (ix3 p z f) = x (ix2 p f) := by
  refine shapeCast_apply x h _ _ ?_
  rw [Shape.rowMajor_val_three, Shape.rowMajor_val_two]
  show p.val * c + f.val = (p.val * 1 + z.val) * c + f.val
  have : z.val = 0 := by omega
  rw [this]; simp

/-- Broadcasting along the unit middle axis: entry (p, q, f) of the [a, b, c] result is entry (p, 0, f). -/
theorem bcastMid_apply (x : (⟨3, ![a, 1, c]⟩ : Shape).Idx → α) (h : (⟨3, ![a, 1, c]⟩ : Shape).Broadcasts ⟨3, ![a, b, c]⟩)
    (p : Fin a) (q : Fin b) (f : Fin c) :
    broadcastTo ⟨3, ![a, b, c]⟩ x h (ix3 p q f) = x (ix3 p 0 f) := by
  refine broadcastTo_apply x h _ _ fun d => ?_
  match d with
  | ⟨0, _⟩ =>
    show p.val = if a = 1 then 0 else p.val
    split_ifs with h1
    · have := p.isLt; omega
    · rfl
  | ⟨1, _⟩ => show (0 : ℕ) = if (1 : ℕ) = 1 then 0 else q.val; simp
  | ⟨2, _⟩ =>
    show f.val = if c = 1 then 0 else f.val
    split_ifs with h1
    · have := f.isLt; omega
    · rfl

/-- A shared vector given two unit leading axes: entry (0, 0, f) of the [1, 1, c] view is entry (0, f). -/
theorem leadUnits_apply (x : (⟨2, ![1, c]⟩ : Shape).Idx → α) (h : (⟨2, ![1, c]⟩ : Shape).ShapeCasts ⟨3, ![1, 1, c]⟩)
    (z z' : Fin 1) (f : Fin c) :
    shapeCast ⟨3, ![1, 1, c]⟩ x h (ix3 z z' f) = x (ix2 0 f) := by
  refine shapeCast_apply x h _ _ ?_
  rw [Shape.rowMajor_val_three, Shape.rowMajor_val_two]
  show (0 : ℕ) * c + f.val = (z.val * 1 + z'.val) * c + f.val
  have : z.val = 0 := by omega
  have : z'.val = 0 := by omega
  simp [*]

/-- Broadcasting a [1, 1, c] vector to [a, b, c]: entry (p, q, f) is entry (0, 0, f). -/
theorem bcastLead_apply (x : (⟨3, ![1, 1, c]⟩ : Shape).Idx → α) (h : (⟨3, ![1, 1, c]⟩ : Shape).Broadcasts ⟨3, ![a, b, c]⟩)
    (p : Fin a) (q : Fin b) (f : Fin c) :
    broadcastTo ⟨3, ![a, b, c]⟩ x h (ix3 p q f) = x (ix3 0 0 f) := by
  refine broadcastTo_apply x h _ _ fun d => ?_
  match d with
  | ⟨0, _⟩ => show (0 : ℕ) = if (1 : ℕ) = 1 then 0 else p.val; simp
  | ⟨1, _⟩ => show (0 : ℕ) = if (1 : ℕ) = 1 then 0 else q.val; simp
  | ⟨2, _⟩ =>
    show f.val = if c = 1 then 0 else f.val
    split_ifs with h1
    · have := f.isLt; omega
    · rfl

/-- Broadcasting a [1, 1] scalar to [a, b]: every entry is entry (0, 0). -/
theorem bcastScalar_apply (x : (⟨2, ![1, 1]⟩ : Shape).Idx → α) (h : (⟨2, ![1, 1]⟩ : Shape).Broadcasts ⟨2, ![a, b]⟩)
    (p : Fin a) (q : Fin b) :
    broadcastTo ⟨2, ![a, b]⟩ x h (ix2 p q) = x (ix2 0 0) := by
  refine broadcastTo_apply x h _ _ fun d => ?_
  match d with
  | ⟨0, _⟩ => show (0 : ℕ) = if (1 : ℕ) = 1 then 0 else p.val; simp
  | ⟨1, _⟩ => show (0 : ℕ) = if (1 : ℕ) = 1 then 0 else q.val; simp

/-- The sum along the last axis of a [a, b, c] array of extended reals, from the zero word: entry (p, q) of the
    result is the sum over `g` of entry (p, q, g). -/
theorem sumLast_apply {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ g : Fin c, src (ix3 p q g) := by
  rw [Ideal.multiReduction_add_single]
  refine Finset.sum_congr rfl fun g _ => congrArg src ?_
  funext d
  refine Fin.ext ?_
  rw [Shape.Reduces.lift_val]
  unfold Shape.Reduces.liftVal
  match d with
  | ⟨0, _⟩ => rfl
  | ⟨1, _⟩ => rfl
  | ⟨2, _⟩ => rfl

end FoldedRows

end
-- ==== Proof.KernelBody.lean ====
/-
  The kernel body's stored value, read at an entry.

  At one grid point the body holds a [32, 512] block of state rows, a [32, 128, 64] block of action features
  (32 batch rows, 128 actions each), and the weights.  It treats the 32·128 (row, action) pairs as 4096 rows
  (pair (p, q) is row p·128 + q), multiplies by the action part of the first-layer matrix, adds the row's state
  product (one [32, 256] product, repeated along the action axis) and the bias, rectifies, multiplies by the
  second-layer matrix, adds its bias, rectifies, and finally sums the products with the output weights along
  the last axis and adds the output bias.  Entry (p, q) of the stored [32, 128] block is therefore the score
  `Mlp.score` of action q of row p: format changes are the identity on extended reals, each matrix product into
  a zero accumulator is the plain sum, and the folding of (p, q) into one row index is undone by the unfolding.
-/
import proofs.«140430_j87359634801144_1_alg».proof.Proof.Gen.KernelIdeal.Skeleton
import proofs.«140430_j87359634801144_1_alg».proof.Proof.Spec
import proofs.«140430_j87359634801144_1_alg».proof.Proof.LibPlainDot
import proofs.«140430_j87359634801144_1_alg».proof.Proof.LibFoldedRows

noncomputable section

open scoped BigOperators

namespace Cert.KernelIdeal.Body

open Cert.KernelIdeal Cert.KernelIdeal.Gen Idealize.ShloMosaic Idealize.ShloMosaic.ValueIdx

/-- The three products contract the left operand's columns with the right operand's rows. -/
theorem plainState : PlainDot.IsPlain dot_S32x512_S512x256_S32x256_1_0_0_1_n_n := ⟨rfl, rfl, rfl, rfl, rfl, rfl⟩
theorem plainAction : PlainDot.IsPlain dot_S4096x64_S64x256_S4096x256_1_0_0_1_n_n := ⟨rfl, rfl, rfl, rfl, rfl, rfl⟩
theorem plainSecond : PlainDot.IsPlain dot_S4096x256_S256x128_S4096x128_1_0_0_1_n_n := ⟨rfl, rfl, rfl, rfl, rfl, rfl⟩

/-- The row that the pair (batch row p, action q) becomes when the two axes are folded. -/
abbrev rowOf (p : Fin 32) (q : Fin 128) : Fin 4096 := ⟨p.val * 128 + q.val, by omega⟩

/-- The second hidden layer's unit g for the pair (p, q), as the body computes it from its loads. -/
theorem hidden_apply (x0 : Vec Ideal S32x512 .f32) (x2 : Vec Ideal S512x256 .f32) (x1 : Vec Ideal S32x128x64 .f32)
    (x3 : Vec Ideal S64x256 .f32) (x4 : Vec Ideal S1x256 .f32) (x5 : Vec Ideal S256x128 .f32) (x6 : Vec Ideal S1x128 .f32)
    (p : Fin 32) (q : Fin 128) (g : Fin 128) :
    k0_pay2 (F := Ideal) x0 x2 x1 x3 x4 x5 x6 (ix3 p q g)
      = Mlp.hidden2 (Mlp.hidden1 (fun k => x0 (ix2 p k)) (fun f => x1 (ix3 p q f)) (fun k h => x2 (ix2 k h))
          (fun f h => x3 (ix2 f h)) (fun h => x4 (ix2 0 h))) (fun h g => x5 (ix2 h g)) (fun g => x6 (ix2 0 g)) g := by
  unfold k0_pay2 Mlp.hidden2
  rw [maximumf_apply, addf_apply, broadcast_apply]
  refine congrArg₂ max (congrArg₂ (· + ·) ?_ ?_) rfl
  · -- the second product, unfolded to (p, q, g), over the rectified first layer
    refine (FoldedRows.unfold_apply _ _ p q g (rowOf p q) rfl).trans ?_
    refine (PlainDot.matmul_zero_apply plainSecond none _ _ (rowOf p q) g).trans (Finset.sum_congr rfl fun h _ => ?_)
    rw [truncf_apply, truncf_apply]
    refine congrArg₂ (· * ·) ?_ rfl
    refine (FoldedRows.fold_apply _ _ p q h (rowOf p q) rfl).trans ?_
    unfold Mlp.hidden1
    rw [maximumf_apply, addf_apply, addf_apply, broadcast_apply]
    refine congrArg₂ max (congrArg₂ (· + ·) (congrArg₂ (· + ·) ?_ ?_) ?_) rfl
    · -- the action product
      refine (FoldedRows.unfold_apply _ _ p q h (rowOf p q) rfl).trans ?_
      refine (PlainDot.matmul_zero_apply plainAction none _ _ (rowOf p q) h).trans (Finset.sum_congr rfl fun f _ => ?_)
      rw [truncf_apply, truncf_apply]
      refine congrArg₂ (· * ·) ?_ (by rw [shapeCast_self])
      refine (FoldedRows.fold_apply _ _ p q f (rowOf p q) rfl).trans ?_
      rw [shapeCast_self]
    · -- the state product, repeated along the action axis
      refine (FoldedRows.bcastMid_apply _ _ p q h).trans ?_
      refine (FoldedRows.midUnit_apply _ _ p 0 h).trans ?_
      refine (PlainDot.matmul_zero_apply plainState none _ _ p h).trans (Finset.sum_congr rfl fun k _ => ?_)
      rw [truncf_apply, truncf_apply, shapeCast_self]
    · -- the first bias
      refine (FoldedRows.bcastLead_apply _ _ p q h).trans ?_
      refine (FoldedRows.leadUnits_apply _ _ 0 0 h).trans ?_
      rw [shapeCast_self]
  · -- the second bias
    refine (FoldedRows.bcastLead_apply _ _ p q g).trans ?_
    refine (FoldedRows.leadUnits_apply _ _ 0 0 g).trans ?_
    rw [shapeCast_self]

/-- The output unit for the pair (p, q): the sum along the last axis of the second layer times the output
    weights, plus the output bias. -/
theorem out_apply (v37 : FVec Ideal S32x128x128 .f32) (x7 : Vec Ideal S1x128 .f32) (x8 : Vec Ideal S1x1 .f32)
    (p : Fin 32) (q : Fin 128) :
    k0_pay1 (F := Ideal) v37 x7 x8 (ix2 p q)
      = Mlp.out3 (fun g => v37 (ix3 p q g)) (fun g => x7 (ix2 0 g)) (x8 (ix2 0 0)) := by
  unfold k0_pay1 Mlp.out3
  rw [addf_apply, shapeCast_shapeCast]
  refine congrArg₂ (· + ·) ?_ ?_
  · refine (FoldedRows.sumLast_apply _ _ _ _ _ p q).trans (Finset.sum_congr rfl fun g _ => ?_)
    rw [mulf_apply, FoldedRows.bcastLead_apply, FoldedRows.leadUnits_apply, shapeCast_self]
  · rw [FoldedRows.bcastScalar_apply, shapeCast_self]

/-- Entry (p, q) of the stored block is the score of action q of row p, from the blocks the body loaded. -/
theorem stored_apply (x0 : Vec Ideal S32x512 .f32) (x1 : Vec Ideal S32x128x64 .f32) (x2 : Vec Ideal S512x256 .f32)
    (x3 : Vec Ideal S64x256 .f32) (x4 : Vec Ideal S1x256 .f32) (x5 : Vec Ideal S256x128 .f32) (x6 : Vec Ideal S1x128 .f32)
    (x7 : Vec Ideal S1x128 .f32) (x8 : Vec Ideal S1x1 .f32) (p : Fin 32) (q : Fin 128) :
    k0_pay1 (F := Ideal) (k0_pay2 x0 x2 x1 x3 x4 x5 x6) x7 x8 (ix2 p q)
      = Mlp.score (fun k => x0 (ix2 p k)) (fun f => x1 (ix3 p q f)) (fun k h => x2 (ix2 k h)) (fun f h => x3 (ix2 f h))
          (fun h => x4 (ix2 0 h)) (fun h g => x5 (ix2 h g)) (fun g => x6 (ix2 0 g)) (fun g => x7 (ix2 0 g)) (x8 (ix2 0 0)) := by
  rw [out_apply]
  unfold Mlp.score
  refine congrArg (fun y => Mlp.out3 y _ _) (funext fun g => ?_)
  exact hidden_apply x0 x2 x1 x3 x4 x5 x6 p q g

end Cert.KernelIdeal.Body

end
-- ==== Proof.KernelArray.lean ====
/-
  The kernel's output array after the region: one score per (batch row, padded action).

  The grid has 8 × 8 points; point (i, k) holds rows 32i … 32i+31 of the state array, the [32, 128, 64] block
  (i, k) of the action features padded to 1024 actions, and every weight array whole, and writes back the
  [32, 128] block (i, k) of the [256, 1024] output.  Entry (p, q) of that block is the score of padded action
  128k + q of row 32i + p, so every block is the restriction of ONE function of the region-entry arrays
  (`padded`), and since the 64 blocks tile the output, the output ends holding that function.
-/
import proofs.«140430_j87359634801144_1_alg».proof.Proof.Gen.KernelIdeal.Frame
import proofs.«140430_j87359634801144_1_alg».proof.Proof.KernelBody
import Idealize.ShloMosaic.Lib.Pipeline.Value

set_option maxRecDepth 16384

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The arrays the region finds, and the blocks a point holds, at their literal types -/

abbrev aState (c : Dev nD) : Vec Ideal S256x512 .f32 := V m c main_arg0
abbrev aFeat (c : Dev nD) : Vec Ideal S256x1024x64 .f32 := V m c main_v2
abbrev aW1s (c : Dev nD) : Vec Ideal S512x256 .f32 := V m c main_v0
abbrev aW1a (c : Dev nD) : Vec Ideal S64x256 .f32 := V m c main_v1
abbrev aB1 (c : Dev nD) : Vec Ideal S1x256 .f32 := V m c main_v3
abbrev aW2 (c : Dev nD) : Vec Ideal S256x128 .f32 := V m c main_arg4
abbrev aB2 (c : Dev nD) : Vec Ideal S1x128 .f32 := V m c main_v4
abbrev aW3 (c : Dev nD) : Vec Ideal S1x128 .f32 := V m c main_v6
abbrev aB3 (c : Dev nD) : Vec Ideal S1x1 .f32 := V m c main_v7

abbrev blk0 (c : Dev nD) (t : Fin cfg0.N) : Vec Ideal S32x512 .f32 := iblk m c 0 t
abbrev blk1 (c : Dev nD) (t : Fin cfg0.N) : Vec Ideal S32x128x64 .f32 := iblk m c 1 t
abbrev blk2 (c : Dev nD) (t : Fin cfg0.N) : Vec Ideal S512x256 .f32 := iblk m c 2 t
abbrev blk3 (c : Dev nD) (t : Fin cfg0.N) : Vec Ideal S64x256 .f32 := iblk m c 3 t
abbrev blk4 (c : Dev nD) (t : Fin cfg0.N) : Vec Ideal S1x256 .f32 := iblk m c 4 t
abbrev blk5 (c : Dev nD) (t : Fin cfg0.N) : Vec Ideal S256x128 .f32 := iblk m c 5 t
abbrev blk6 (c : Dev nD) (t : Fin cfg0.N) : Vec Ideal S1x128 .f32 := iblk m c 6 t
abbrev blk7 (c : Dev nD) (t : Fin cfg0.N) : Vec Ideal S1x128 .f32 := iblk m c 7 t
abbrev blk8 (c : Dev nD) (t : Fin cfg0.N) : Vec Ideal S1x1 .f32 := iblk m c 8 t

/-- The score of padded action `a` of row `r`, from the arrays the region finds. -/
def scoreAt (c : Dev nD) (r : Fin 256) (a : Fin 1024) : EReal :=
  Mlp.score (fun k => aState m c (ix2 r k)) (fun f => aFeat m c (ix3 r a f)) (fun k h => aW1s m c (ix2 k h))
    (fun f h => aW1a m c (ix2 f h)) (fun h => aB1 m c (ix2 0 h)) (fun h g => aW2 m c (ix2 h g))
    (fun g => aB2 m c (ix2 0 g)) (fun g => aW3 m c (ix2 0 g)) (aB3 m c (ix2 0 0))

/-- The whole [256, 1024] output as one function of the arrays the region finds. -/
def padded (c : Dev nD) : Vec Ideal S256x1024 .f32 := fun i => scoreAt m c (i 0) (i 1)

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The state block moves with the output block's row index; the feature block with both its indices; the weight
    windows stay at block zero. -/
theorem idx_facts : ∀ t : Fin cfg0.N,
    win0_0.index t (0 : Fin 2) = win0_9.index t (0 : Fin 2) ∧ win0_0.index t (1 : Fin 2) = 0
    ∧ win0_1.index t (0 : Fin 3) = win0_9.index t (0 : Fin 2) ∧ win0_1.index t (1 : Fin 3) = win0_9.index t (1 : Fin 2)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every block of the 8 × 8 tiling of the output is some point's. -/
theorem idx_onto : ∀ (q0 : Fin 8) (q1 : Fin 8), ∃ t : Fin cfg0.N, win0_9.index t = ![q0.val, q1.val] :=
  (by decide +kernel : ∀ (q0 : Fin 8) (q1 : Fin 8), ∃ t : Fin grid0.N, win0_9.index t = ![q0.val, q1.val])

/-! ## What a point writes back -/

/-- Entry `y` of the block point `t` stores is `padded` at the array index `i` that `y` is embedded at. -/
theorem block_apply (c : Dev nD) (t : Fin cfg0.N) (y : S32x128.Idx) (i : S256x1024.Idx)
    (h0 : (i 0).val = win0_9.index t (0 : Fin 2) * 32 + (y 0).val)
    (h1 : (i 1).val = win0_9.index t (1 : Fin 2) * 128 + (y 1).val) :
    k0_pay1 (F := Ideal) (k0_pay2 (blk0 m c t) (blk2 m c t) (blk1 m c t) (blk3 m c t) (blk4 m c t) (blk5 m c t) (blk6 m c t))
        (blk7 m c t) (blk8 m c t) y = padded m c i := by
  obtain ⟨p, q, rfl⟩ : ∃ (p : Fin 32) (q : Fin 128), y = ix2 p q := ⟨y 0, y 1, eq_ix2 y⟩
  have h0' : (i 0).val = win0_9.index t (0 : Fin 2) * 32 + p.val := h0
  have h1' : (i 1).val = win0_9.index t (1 : Fin 2) * 128 + q.val := h1
  obtain ⟨e00, e01, e10, e11, e12, e20, e21, e30, e31, e40, e41, e50, e51, e60, e61, e70, e71, e80, e81⟩ := idx_facts t
  refine (Body.stored_apply (blk0 m c t) (blk1 m c t) (blk2 m c t) (blk3 m c t) (blk4 m c t) (blk5 m c t) (blk6 m c t)
    (blk7 m c t) (blk8 m c t) p q).trans ?_
  unfold padded scoreAt
  congr 1
  · funext k
    show V m c main_arg0 (((cfg0.win 0).blk t).view.emb (ix2 p k)) = V m c main_arg0 (ix2 (i 0) k)
    refine congrArg _ (funext fun a => Fin.ext ?_)
    match a with
    | ⟨0, _⟩ => show win0_0.index t (0 : Fin 2) * 32 + 1 * p.val = (i 0).val; omega
    | ⟨1, _⟩ => show win0_0.index t (1 : Fin 2) * 512 + 1 * k.val = k.val; omega
  · funext f
    show V m c main_v2 (((cfg0.win 1).blk t).view.emb (ix3 p q f)) = V m c main_v2 (ix3 (i 0) (i 1) f)
    refine congrArg _ (funext fun a => Fin.ext ?_)
    match a with
    | ⟨0, _⟩ => show win0_1.index t (0 : Fin 3) * 32 + 1 * p.val = (i 0).val; omega
    | ⟨1, _⟩ => show win0_1.index t (1 : Fin 3) * 128 + 1 * q.val = (i 1).val; omega
    | ⟨2, _⟩ => show win0_1.index t (2 : Fin 3) * 64 + 1 * f.val = f.val; omega
  · funext k h
    show V m c main_v0 (((cfg0.win 2).blk t).view.emb (ix2 k h)) = V m c main_v0 (ix2 k h)
    refine congrArg _ (funext fun a => Fin.ext ?_)
    match a with
    | ⟨0, _⟩ => show win0_2.index t (0 : Fin 2) * 512 + 1 * k.val = k.val; omega
    | ⟨1, _⟩ => show win0_2.index t (1 : Fin 2) * 256 + 1 * h.val = h.val; omega
  · funext f h
    show V m c main_v1 (((cfg0.win 3).blk t).view.emb (ix2 f h)) = V m c main_v1 (ix2 f h)
    refine congrArg _ (funext fun a => Fin.ext ?_)
    match a with
    | ⟨0, _⟩ => show win0_3.index t (0 : Fin 2) * 64 + 1 * f.val = f.val; omega
    | ⟨1, _⟩ => show win0_3.index t (1 : Fin 2) * 256 + 1 * h.val = h.val; omega
  · funext h
    show V m c main_v3 (((cfg0.win 4).blk t).view.emb (ix2 0 h)) = V m c main_v3 (ix2 0 h)
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * h.val = h.val; omega
  · funext h g
    show V m c main_arg4 (((cfg0.win 5).blk t).view.emb (ix2 h g)) = V m c main_arg4 (ix2 h g)
    refine congrArg _ (funext fun a => Fin.ext ?_)
    match a with
    | ⟨0, _⟩ => show win0_5.index t (0 : Fin 2) * 256 + 1 * h.val = h.val; omega
    | ⟨1, _⟩ => show win0_5.index t (1 : Fin 2) * 128 + 1 * g.val = g.val; omega
  · funext g
    show V m c main_v4 (((cfg0.win 6).blk t).view.emb (ix2 0 g)) = V m c main_v4 (ix2 0 g)
    refine congrArg _ (funext fun a => Fin.ext ?_)
    match a with
    | ⟨0, _⟩ => show win0_6.index t (0 : Fin 2) * 1 + 1 * 0 = 0; omega
    | ⟨1, _⟩ => show win0_6.index t (1 : Fin 2) * 128 + 1 * g.val = g.val; omega
  · funext g
    show V m c main_v6 (((cfg0.win 7).blk t).view.emb (ix2 0 g)) = V m c main_v6 (ix2 0 g)
    refine congrArg _ (funext fun a => Fin.ext ?_)
    match a with
    | ⟨0, _⟩ => show win0_7.index t (0 : Fin 2) * 1 + 1 * 0 = 0; omega
    | ⟨1, _⟩ => show win0_7.index t (1 : Fin 2) * 128 + 1 * g.val = g.val; omega

/-- What point `t` writes back is block `t` of `padded`. -/
theorem flushed_eq (c : Dev nD) (t : Fin cfg0.N) :
    (dats m 0 c).flushed 9 t = ((cfg0.win 9).blk t).view.read (Elt Ideal) (padded m c) := by
  show (cfg0.win 9).cut (grid0.coords t) ((dats m 0 c).after 9 t) = _
  rw [after0_9]
  unfold out0_9
  rw [View.canon_unit_zero hz2]
  simp only [View.ld_unit_zero (S := S32x512) hz2, View.ld_unit_zero (S := S32x128x64) hz3,
    View.ld_unit_zero (S := S512x256) hz2, View.ld_unit_zero (S := S64x256) hz2, View.ld_unit_zero (S := S1x256) hz2,
    View.ld_unit_zero (S := S256x128) hz2, View.ld_unit_zero (S := S1x128) hz2, View.ld_unit_zero (S := S1x1) hz2]
  funext j
  show k0_pay1 (F := Ideal) (k0_pay2 (blk0 m c t) (blk2 m c t) (blk1 m c t) (blk3 m c t) (blk4 m c t) (blk5 m c t) (blk6 m c t))
      (blk7 m c t) (blk8 m c t) ((cfg0.win 9).xinj (grid0.coords t) j) = padded m c (((cfg0.win 9).blk t).view.emb j)
  refine block_apply m c t _ _ ?_ ?_
  · show win0_9.index t (0 : Fin 2) * 32 + 1 * (j 0).val = win0_9.index t (0 : Fin 2) * 32 + (j 0).val; omega
  · show win0_9.index t (1 : Fin 2) * 128 + 1 * (j 1).val = win0_9.index t (1 : Fin 2) * 128 + (j 1).val; omega

/-! ## The blocks tile the output -/

theorem mem_blk (t : Fin cfg0.N) (i : S256x1024.Idx) :
    i ∈ ((cfg0.win 9).blk t).view.set ↔ ∀ a : Fin 2, win0_9.index t a * S32x128.size a ≤ (i a).val
      ∧ (i a).val < win0_9.index t a * S32x128.size a + S32x128.size a := by
  show i ∈ ((View.whole main_v8).slice (win0_9.rect t)).set ↔ _
  rw [View.set_slice_whole, Rect.mem_set_unit]
  exact Iff.rfl

/-- Index (r, a) of the output is in the block of the point with block indices (r / 32, a / 128). -/
theorem cover (i : S256x1024.Idx) :
    ∃ t : Fin cfg0.N, (cfg0.win 9).flush t = true ∧ i ∈ ((cfg0.win 9).blk t).view.set := by
  have hi0 : (i 0).val < 256 := (i 0).isLt
  have hi1 : (i 1).val < 1024 := (i 1).isLt
  obtain ⟨t, ht⟩ := idx_onto ⟨(i 0).val / 32, by omega⟩ ⟨(i 1).val / 128, by omega⟩
  have q0 : win0_9.index t (0 : Fin 2) = (i 0).val / 32 := congrFun ht 0
  have q1 : win0_9.index t (1 : Fin 2) = (i 1).val / 128 := congrFun ht 1
  refine ⟨t, flush0_9 t, ?_⟩
  rw [mem_blk]
  intro a
  match a with
  | ⟨0, _⟩ =>
    show win0_9.index t (0 : Fin 2) * 32 ≤ (i 0).val ∧ (i 0).val < win0_9.index t (0 : Fin 2) * 32 + 32
    omega
  | ⟨1, _⟩ =>
    show win0_9.index t (1 : Fin 2) * 128 ≤ (i 1).val ∧ (i 1).val < win0_9.index t (1 : Fin 2) * 128 + 128
    omega

/-- The output array after the region is `padded`. -/
theorem final (c : Dev nD) : (dats m 0 c).arrAt 9 cfg0.N = padded m c :=
  (dats m 0 c).arrAt_eq_of_cover 9 (padded m c) (fun t _ => flushed_eq m c t) (cover)

end Cert.KernelIdeal.Arr

end
-- ==== Proof.KernelHost.lean ====
/-
  The kernel's result in terms of the program's arguments.

  Before the region the program cuts the first-layer matrix into its state rows (0 … 511) and its action rows
  (512 … 575), pads the action axis of the features from 1000 to 1024 with the value of the integer 0, and views
  the bias vectors and the output weights as one-row matrices.  After the region it keeps columns 0 … 999 of the
  [256, 1024] output.  Reading each of these operations at an index: for an action k < 1000 the padded features
  are the features themselves, so the kept entry (b, k) is the score of action k of row b from the arguments —
  the padding only ever feeds the 24 discarded columns.
-/
import proofs.«140430_j87359634801144_1_alg».proof.Proof.KernelArray
import Idealize.ShloMosaic.Lib.StableHlo.Run
import Idealize.ShloMosaic.Lib.KernelVsHost
import Idealize.ShloMosaic.Lib.ValueLayout

set_option maxRecDepth 16384

noncomputable section

open scoped BigOperators

namespace Cert.KernelIdeal.Host

open Cert.KernelIdeal Cert.KernelIdeal.Gen Cert.KernelIdeal.Arr Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arguments, at their literal types -/

abbrev x0 (c : Dev nD) : Vec Ideal S256x512 .f32 := m ((c : Thread nD τ).loc main_arg0)
abbrev x1 (c : Dev nD) : Vec Ideal S256x1000x64 .f32 := m ((c : Thread nD τ).loc main_arg1)
abbrev x2 (c : Dev nD) : Vec Ideal S576x256 .f32 := m ((c : Thread nD τ).loc main_arg2)
abbrev x3 (c : Dev nD) : Vec Ideal S256 .f32 := m ((c : Thread nD τ).loc main_arg3)
abbrev x4 (c : Dev nD) : Vec Ideal S256x128 .f32 := m ((c : Thread nD τ).loc main_arg4)
abbrev x5 (c : Dev nD) : Vec Ideal S128 .f32 := m ((c : Thread nD τ).loc main_arg5)
abbrev x6 (c : Dev nD) : Vec Ideal S128x1 .f32 := m ((c : Thread nD τ).loc main_arg6)
abbrev x7 (c : Dev nD) : Vec Ideal S1 .f32 := m ((c : Thread nD τ).loc main_arg7)

/-! ## What the operations before the region leave in each array the region reads -/

theorem state_eq (c : Dev nD) : aState m c = x0 m c := V_main_arg0 m c
theorem w2_eq (c : Dev nD) : aW2 m c = x4 m c := V_main_arg4 m c

theorem w1s_eq (c : Dev nD) :
    aW1s m c = extractStridedSlice S512x256 ![0, 0] (x2 m c) slices_S576x256_S512x256_0_0 := by
  show V m c main_v0 = _
  dsimp only [V, V0]
  simp only [hostOps0, hostOps0_1, hostOps0_2, List.flatten_cons, List.flatten_nil, List.append_nil, List.cons_append, List.nil_append]
  after_results <;> rfl

theorem w1a_eq (c : Dev nD) :
    aW1a m c = extractStridedSlice S64x256 ![512, 0] (x2 m c) slices_S576x256_S64x256_512_0 := by
  show V m c main_v1 = _
  dsimp only [V, V0]
  simp only [hostOps0, hostOps0_1, hostOps0_2, List.flatten_cons, List.flatten_nil, List.append_nil, List.cons_append, List.nil_append]
  after_results <;> rfl

theorem feat_eq (c : Dev nD) :
    aFeat m c = pad S256x1024x64 ![0, 0, 0] ![0, 24, 0] ![0, 0, 0] (x1 m c) (sitofp (F := Ideal) .f32 (constantI S_ 32 0#32))
      pads_S256x1000x64_S256x1024x64_000_0240_000 h_S_ := by
  show V m c main_v2 = _
  dsimp only [V, V0]
  simp only [hostOps0, hostOps0_1, hostOps0_2, List.flatten_cons, List.flatten_nil, List.append_nil, List.cons_append, List.nil_append]
  after_results <;> rfl

theorem b1_eq (c : Dev nD) : aB1 m c = shapeCast S1x256 (x3 m c) shapeCasts_S256_S1x256 := by
  show V m c main_v3 = _
  dsimp only [V, V0]
  simp only [hostOps0, hostOps0_1, hostOps0_2, List.flatten_cons, List.flatten_nil, List.append_nil, List.cons_append, List.nil_append]
  after_results <;> rfl

theorem b2_eq (c : Dev nD) : aB2 m c = shapeCast S1x128 (x5 m c) shapeCasts_S128_S1x128 := by
  show V m c main_v4 = _
  dsimp only [V, V0]
  simp only [hostOps0, hostOps0_1, hostOps0_2, List.flatten_cons, List.flatten_nil, List.append_nil, List.cons_append, List.nil_append]
  after_results <;> rfl

theorem w3_eq (c : Dev nD) :
    aW3 m c = shapeCast S1x128 (shapeCast S128 (x6 m c) shapeCasts_S128x1_S128) shapeCasts_S128_S1x128 := by
  show V m c main_v6 = _
  dsimp only [V, V0]
  simp only [hostOps0, hostOps0_1, hostOps0_2, List.flatten_cons, List.flatten_nil, List.append_nil, List.cons_append, List.nil_append]
  after_results <;> rfl

theorem b3_eq (c : Dev nD) : aB3 m c = shapeCast S1x1 (x7 m c) shapeCasts_S1_S1x1 := by
  show V m c main_v7 = _
  dsimp only [V, V0]
  simp only [hostOps0, hostOps0_1, hostOps0_2, List.flatten_cons, List.flatten_nil, List.append_nil, List.cons_append, List.nil_append]
  after_results <;> rfl

/-! ## Each read at an index -/

theorem w1s_at (c : Dev nD) (k : Fin 512) (h : Fin 256) : aW1s m c (ix2 k h) = x2 m c (ix2 (Mlp.topRow k) h) := by
  rw [w1s_eq]
  exact extractStridedSlice_apply ![0, 0] (x2 m c) slices_S576x256_S512x256_0_0 (ix2 k h) (ix2 (Mlp.topRow k) h) (fun a => match a with
    | ⟨0, _⟩ => by show k.val = 0 + k.val; omega
    | ⟨1, _⟩ => by show h.val = 0 + h.val; omega)

theorem w1a_at (c : Dev nD) (f : Fin 64) (h : Fin 256) : aW1a m c (ix2 f h) = x2 m c (ix2 (Mlp.lowRow f) h) := by
  rw [w1a_eq]
  exact extractStridedSlice_apply ![512, 0] (x2 m c) slices_S576x256_S64x256_512_0 (ix2 f h) (ix2 (Mlp.lowRow f) h) (fun a => match a with
    | ⟨0, _⟩ => by show 512 + f.val = 512 + f.val; rfl
    | ⟨1, _⟩ => by show h.val = 0 + h.val; omega)

/-- Below the 1000th action the padded features are the features. -/
theorem feat_at (c : Dev nD) (b : Fin 256) (k : Fin 1000) (f : Fin 64) :
    aFeat m c (ix3 b (⟨k.val, by omega⟩ : Fin 1024) f) = x1 m c (ix3 b k f) := by
  rw [feat_eq]
  exact pad_apply_of_inside ![0, 0, 0] ![0, 24, 0] ![0, 0, 0] (x1 m c) _ pads_S256x1000x64_S256x1024x64_000_0240_000 h_S_ _ (ix3 b k f)
    (fun a => match a with
      | ⟨0, _⟩ => by show b.val = 0 + b.val * (0 + 1); omega
      | ⟨1, _⟩ => by show k.val = 0 + k.val * (0 + 1); omega
      | ⟨2, _⟩ => by show f.val = 0 + f.val * (0 + 1); omega)

theorem b1_at (c : Dev nD) (h : Fin 256) : aB1 m c (ix2 0 h) = x3 m c (ix1 h) := by
  rw [b1_eq]; exact shapeCast_a_1a_apply (x3 m c) shapeCasts_S256_S1x256 0 h

theorem b2_at (c : Dev nD) (g : Fin 128) : aB2 m c (ix2 0 g) = x5 m c (ix1 g) := by
  rw [b2_eq]; exact shapeCast_a_1a_apply (x5 m c) shapeCasts_S128_S1x128 0 g

theorem w3_at (c : Dev nD) (g : Fin 128) : aW3 m c (ix2 0 g) = x6 m c (ix2 g 0) := by
  rw [w3_eq]
  refine (shapeCast_a_1a_apply _ shapeCasts_S128_S1x128 0 g).trans ?_
  refine shapeCast_apply (x6 m c) shapeCasts_S128x1_S128 (ix1 g) (ix2 g 0) ?_
  rw [Shape.rowMajor_val_two, Shape.rowMajor_val_one]
  show g.val * 1 + 0 = g.val
  omega

theorem b3_at (c : Dev nD) : aB3 m c (ix2 0 0) = x7 m c (ix1 0) := by
  rw [b3_eq]; exact shapeCast_a_1a_apply (x7 m c) shapeCasts_S1_S1x1 0 0

/-! ## The kept entries -/

/-- For an action below 1000, the region's score is the score from the arguments. -/
theorem scoreAt_eq (c : Dev nD) (b : Fin 256) (k : Fin 1000) :
    scoreAt m c b (⟨k.val, by omega⟩ : Fin 1024)
      = Mlp.scores (A := 1000) (x0 m c) (x1 m c) (x2 m c) (x3 m c) (x4 m c) (x5 m c) (x6 m c) (x7 m c) (ix2 b k) := by
  unfold scoreAt
  show _ = Mlp.score (fun j => x0 m c (ix2 b j)) (fun f => x1 m c (ix3 b k f))
    (fun j h => x2 m c (ix2 (Mlp.topRow j) h)) (fun f h => x2 m c (ix2 (Mlp.lowRow f) h))
    (fun h => x3 m c (ix1 h)) (fun h g => x4 m c (ix2 h g)) (fun g => x5 m c (ix1 g))
    (fun g => x6 m c (ix2 g 0)) (x7 m c (ix1 0))
  rw [state_eq, w2_eq, b3_at]
  rw [show (fun f => aFeat m c (ix3 b (⟨k.val, by omega⟩ : Fin 1024) f)) = fun f => x1 m c (ix3 b k f) from funext fun f => feat_at m c b k f,
    show (fun j h => aW1s m c (ix2 j h)) = fun j h => x2 m c (ix2 (Mlp.topRow j) h) from funext fun j => funext fun h => w1s_at m c j h,
    show (fun f h => aW1a m c (ix2 f h)) = fun f h => x2 m c (ix2 (Mlp.lowRow f) h) from funext fun f => funext fun h => w1a_at m c f h,
    show (fun h => aB1 m c (ix2 0 h)) = fun h => x3 m c (ix1 h) from funext fun h => b1_at m c h,
    show (fun g => aB2 m c (ix2 0 g)) = fun g => x5 m c (ix1 g) from funext fun g => b2_at m c g,
    show (fun g => aW3 m c (ix2 0 g)) = fun g => x6 m c (ix2 g 0) from funext fun g => w3_at m c g]

/-- The result buffer after the operations that follow the region: the first 1000 columns of the output. -/
theorem tail_eq (c : Dev nD) :
    Pipeline.afterTail₀ cfgs (dats m) 0 (V0 m) [hostOps1] c main_v9
      = extractStridedSlice S256x1000 ![0, 0] (padded m c) slices_S256x1024_S256x1000_0_0 := by
  unfold Pipeline.afterTail₀
  show StableHlo.after hostOps1 _ (Proc.devRef .tc main_v9) = _
  after_results
  refine congrArg (fun z : Vec Ideal S256x1024 .f32 => extractStridedSlice S256x1000 ![0, 0] z slices_S256x1024_S256x1000_0_0) ?_
  exact (Pipeline.withArrays_arr spec0 launch0.win.arr_inj c _ _ 9).trans (final m c)

/-- The result, entry by entry, is the scoring network of the arguments. -/
theorem result_eq (c : Dev nD) :
    Pipeline.afterTail₀ cfgs (dats m) 0 (V0 m) [hostOps1] c main_v9
      = Mlp.scores (A := 1000) (x0 m c) (x1 m c) (x2 m c) (x3 m c) (x4 m c) (x5 m c) (x6 m c) (x7 m c) := by
  rw [tail_eq]
  funext i
  obtain ⟨b, k, rfl⟩ : ∃ (b : Fin 256) (k : Fin 1000), i = ix2 b k := ⟨i 0, i 1, eq_ix2 i⟩
  refine (extractStridedSlice_apply ![0, 0] (padded m c) slices_S256x1024_S256x1000_0_0 (ix2 b k)
    (ix2 b (⟨k.val, by omega⟩ : Fin 1024)) (fun a => match a with
      | ⟨0, _⟩ => by show b.val = 0 + b.val; omega
      | ⟨1, _⟩ => by show k.val = 0 + k.val; omega)).trans ?_
  exact scoreAt_eq m c b k

/-! ## The run -/

/-- Every weakly fair execution of the program ends with the result buffer holding the scoring network of the
    arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
        = Mlp.scores (A := 1000) (x0 m c) (x1 m c) (x2 m c) (x3 m c) (x4 m c) (x5 m c) (x6 m c) (x7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v9 (Pipeline.mem_restRefs_of main_v9 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Host

end
-- ==== Proof.RefSide.lean ====
/-
  The reference's result is the scoring network, entry by entry.

  The reference computes with whole arrays: it slices the first-layer matrix into its state rows and its action
  rows, contracts the state with the former (one [256, 256] product, broadcast over the action axis) and the
  features with the latter, adds the two and the bias, rectifies against a broadcast zero, contracts with the
  second-layer matrix, adds its bias, rectifies, contracts with the one-column output matrix, adds the output
  bias, and drops the trailing unit axis.  Read at an index, each contraction is a finite sum over its one
  contracted axis and every slice, broadcast and reshape is a change of index, so entry (b, k) of the result is
  `Mlp.score` of row b's state and action k's features, layer by layer.
-/
import proofs.«140430_j87359634801144_1_alg».proof.Proof.Gen.ReferenceIdeal.Read
import proofs.«140430_j87359634801144_1_alg».proof.Proof.Spec
noncomputable section
open scoped BigOperators
namespace Cert.ReferenceIdeal.RefValue
open Cert.ReferenceIdeal Cert.ReferenceIdeal.Read Idealize.ShloMosaic Idealize.ShloMosaic.ValueIdx

/-! Index equations for the first layer: the reference's composed index maps at coordinates. -/

theorem feat_at (b : Fin 256) (k : Fin 1000) (h : Fin 256) (f : Fin 64) :
    lidx_main_v3 (ix3 b k h) f = ix3 b k f :=
  funext fun a => Fin.ext (by match a with | ⟨0, _⟩ => rfl | ⟨1, _⟩ => rfl | ⟨2, _⟩ => rfl)

theorem lowRow_at (b : Fin 256) (k : Fin 1000) (h : Fin 256) (f : Fin 64) :
    idx_main_v1 (ridx_main_v3 (ix3 b k h) f) = ix2 (Mlp.lowRow f) h :=
  funext fun a => Fin.ext (by match a with | ⟨0, _⟩ => rfl | ⟨1, _⟩ => rfl)

theorem state_at (b : Fin 256) (k : Fin 1000) (h : Fin 256) (j : Fin 512) :
    lidx_main_v2 (idx_main_v4 (idx_main_v5 (ix3 b k h))) j = ix2 b j :=
  funext fun a => Fin.ext (by match a with | ⟨0, _⟩ => rfl | ⟨1, _⟩ => rfl)

theorem topRow_at (b : Fin 256) (k : Fin 1000) (h : Fin 256) (j : Fin 512) :
    idx_main_v0 (ridx_main_v2 (idx_main_v4 (idx_main_v5 (ix3 b k h))) j) = ix2 (Mlp.topRow j) h :=
  funext fun a => Fin.ext (by match a with | ⟨0, _⟩ => rfl | ⟨1, _⟩ => rfl)

theorem bias1_at (b : Fin 256) (k : Fin 1000) (h : Fin 256) :
    idx_main_v7 (idx_main_v8 (ix3 b k h)) = ix1 h :=
  funext fun a => Fin.ext (by match a with | ⟨0, _⟩ => rfl)

/-- The first hidden layer: the reference's rectified sum at row b, action k, unit h. -/
theorem v10_at
    (x0 : (⟨S256x512, .f32⟩ : BufTy).Contents (Elt Ideal)) (x1 : (⟨S256x1000x64, .f32⟩ : BufTy).Contents (Elt Ideal))
    (x2 : (⟨S576x256, .f32⟩ : BufTy).Contents (Elt Ideal)) (x3 : (⟨S256, .f32⟩ : BufTy).Contents (Elt Ideal))
    (b : Fin 256) (k : Fin 1000) (h : Fin 256) :
    val_main_v10 (F := Ideal) x0 x1 x2 x3 (ix3 b k h) =
      Mlp.hidden1 (fun j => x0 (ix2 b j)) (fun f => x1 (ix3 b k f))
        (fun j u => x2 (ix2 (Mlp.topRow j) u)) (fun f u => x2 (ix2 (Mlp.lowRow f) u)) (fun u => x3 (ix1 u)) h := by
  unfold Mlp.hidden1
  rw [val_main_v10_apply, val_main_v9_apply, val_main_v6_apply, val_main_v3_apply, val_main_v5_apply, val_main_v4_apply,
    val_main_v2_apply, val_main_v8_apply, val_main_v7_apply, val_main_call0_v0_apply, val_main_call0_cst_apply]
  simp only [val_main_v1_apply, val_main_v0_apply, Ideal.addf_def, Ideal.maximumf_def, Ideal.ofBits_def,
    feat_at, lowRow_at, state_at, topRow_at, bias1_at]

/-! Index equations for the second layer. -/

theorem unit1_at (b : Fin 256) (k : Fin 1000) (g : Fin 128) (h : Fin 256) :
    lidx_main_v11 (ix3 b k g) h = ix3 b k h :=
  funext fun a => Fin.ext (by match a with | ⟨0, _⟩ => rfl | ⟨1, _⟩ => rfl | ⟨2, _⟩ => rfl)

theorem weight2_at (b : Fin 256) (k : Fin 1000) (g : Fin 128) (h : Fin 256) :
    ridx_main_v11 (ix3 b k g) h = ix2 h g :=
  funext fun a => Fin.ext (by match a with | ⟨0, _⟩ => rfl | ⟨1, _⟩ => rfl)

theorem bias2_at (b : Fin 256) (k : Fin 1000) (g : Fin 128) :
    idx_main_v12 (idx_main_v13 (ix3 b k g)) = ix1 g :=
  funext fun a => Fin.ext (by match a with | ⟨0, _⟩ => rfl)

/-- The second hidden layer: the reference's rectified sum over the first layer's units, at row b, action k, unit g. -/
theorem v15_at
    (x0 : (⟨S256x512, .f32⟩ : BufTy).Contents (Elt Ideal)) (x1 : (⟨S256x1000x64, .f32⟩ : BufTy).Contents (Elt Ideal))
    (x2 : (⟨S576x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (b : Fin 256) (k : Fin 1000) (g : Fin 128) :
    val_main_v15 (F := Ideal) x0 x1 x2 x3 x4 x5 (ix3 b k g) =
      Mlp.hidden2
        (Mlp.hidden1 (fun j => x0 (ix2 b j)) (fun f => x1 (ix3 b k f))
          (fun j u => x2 (ix2 (Mlp.topRow j) u)) (fun f u => x2 (ix2 (Mlp.lowRow f) u)) (fun u => x3 (ix1 u)))
        (fun u v => x4 (ix2 u v)) (fun v => x5 (ix1 v)) g := by
  unfold Mlp.hidden2
  rw [val_main_v15_apply, val_main_v14_apply, val_main_v11_apply, val_main_v13_apply, val_main_v12_apply,
    val_main_call1_v0_apply, val_main_call1_cst_apply]
  simp only [Ideal.addf_def, Ideal.maximumf_def, Ideal.ofBits_def, unit1_at, weight2_at, bias2_at, v10_at]

/-! Index equations for the output layer. The result's index (b, k) is read from the rank-3 array at (b, k, 0):
    (b * 1000 + k) / 1000 = b and (b * 1000 + k) % 1000 = k for k below 1000. -/

theorem flat_at (b : Fin 256) (k : Fin 1000) :
    idx_main_v20 (ix2 b k) = ix3 b k (0 : Fin 1) :=
  funext fun a => Fin.ext (by
    have hb := b.isLt
    have hk := k.isLt
    match a with
    | ⟨0, _⟩ => show (b.val * 1000 + k.val) / 1000 = b.val; omega
    | ⟨1, _⟩ => show (b.val * 1000 + k.val) / 1 % 1000 = k.val; omega
    | ⟨2, _⟩ => rfl)

theorem unit2_at (b : Fin 256) (k : Fin 1000) (g : Fin 128) :
    lidx_main_v16 (ix3 b k (0 : Fin 1)) g = ix3 b k g :=
  funext fun a => Fin.ext (by match a with | ⟨0, _⟩ => rfl | ⟨1, _⟩ => rfl | ⟨2, _⟩ => rfl)

theorem weight3_at (b : Fin 256) (k : Fin 1000) (g : Fin 128) :
    ridx_main_v16 (ix3 b k (0 : Fin 1)) g = ix2 g (0 : Fin 1) :=
  funext fun a => Fin.ext (by match a with | ⟨0, _⟩ => rfl | ⟨1, _⟩ => rfl)

theorem bias3_at (b : Fin 256) (k : Fin 1000) :
    idx_main_v17 (idx_main_v18 (ix3 b k (0 : Fin 1))) = ix1 (0 : Fin 1) :=
  funext fun a => Fin.ext (by match a with | ⟨0, _⟩ => rfl)

/-- The reference's result is the scoring network, entry by entry. -/
theorem val_main_v20_eq_scores
    (x0 : (⟨S256x512, .f32⟩ : BufTy).Contents (Elt Ideal)) (x1 : (⟨S256x1000x64, .f32⟩ : BufTy).Contents (Elt Ideal))
    (x2 : (⟨S576x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v20 (F := Ideal) x0 x1 x2 x3 x4 x5 x6 x7 = Mlp.scores (A := 1000) x0 x1 x2 x3 x4 x5 x6 x7 := by
  funext i
  obtain ⟨b, k, rfl⟩ : ∃ (b : Fin 256) (k : Fin 1000), i = ix2 b k := ⟨i 0, i 1, eq_ix2 i⟩
  show val_main_v20 (F := Ideal) x0 x1 x2 x3 x4 x5 x6 x7 (ix2 b k) =
    Mlp.out3
      (Mlp.hidden2
        (Mlp.hidden1 (fun j => x0 (ix2 b j)) (fun f => x1 (ix3 b k f))
          (fun j u => x2 (ix2 (Mlp.topRow j) u)) (fun f u => x2 (ix2 (Mlp.lowRow f) u)) (fun u => x3 (ix1 u)))
        (fun u v => x4 (ix2 u v)) (fun v => x5 (ix1 v)))
      (fun v => x6 (ix2 v (0 : Fin 1))) (x7 (ix1 (0 : Fin 1)))
  unfold Mlp.out3
  rw [val_main_v20_apply, val_main_v19_apply, val_main_v16_apply, val_main_v18_apply, val_main_v17_apply, flat_at]
  simp only [Ideal.addf_def, unit2_at, weight3_at, bias3_at, v15_at]

end Cert.ReferenceIdeal.RefValue
end
-- ==== Proof.lean ====
/-
  The certificate: a Pallas kernel that scores 1000 actions for each of 256 batch rows with a three-layer network
  computes, on the extended reals, what its jnp reference computes.

  Both programs cut the 576-row first-layer matrix into the 512 rows that meet the state and the 64 rows that meet
  an action's features, and both compute, for row b and action k,

      score b k = (Σ_g relu((Σ_h relu((Σ_f af·W1a + Σ_s st·W1s) + b1)·W2) + b2)·W3) + b3

  with the sums associated the same way (Proof/Spec.lean).  The reference does it with whole-array contractions
  and broadcasts (Proof/RefSide.lean reads them one at an index).  The kernel pads the action axis to 1024,
  runs an 8 × 8 grid of [32, 128] output blocks, each from 4096 folded (row, action) pairs
  (Proof/KernelBody.lean: one block's entry; Proof/KernelArray.lean: the blocks tile the output;
  Proof/KernelHost.lean: the padding feeds only the 24 discarded columns, so the kept columns are the scores of
  the arguments).  No law of the extended reals is needed beyond commutativity-free rewriting: a format change is
  the identity, a matrix product into a zero accumulator and a lane sum are the plain finite sums, and the two
  sides agree term by term, so the finiteness precondition is never opened.

  The word-level kernel and the idealized kernel each terminate without fault and leave their arguments unchanged
  by their generated frames; the reference's frame is its run with the result dropped; the idealization ledger is
  empty.
-/
import proofs.«140430_j87359634801144_1_alg».proof.Defs
import proofs.«140430_j87359634801144_1_alg».proof.Proof.Gen.Kernel
import proofs.«140430_j87359634801144_1_alg».proof.Proof.Gen.Kernel.Skeleton
import proofs.«140430_j87359634801144_1_alg».proof.Proof.Gen.Kernel.Launch
import proofs.«140430_j87359634801144_1_alg».proof.Proof.Gen.Kernel.Points
import proofs.«140430_j87359634801144_1_alg».proof.Proof.Gen.Kernel.Frame
import proofs.«140430_j87359634801144_1_alg».proof.Proof.Gen.KernelIdeal
import proofs.«140430_j87359634801144_1_alg».proof.Proof.Gen.KernelIdeal.Skeleton
import proofs.«140430_j87359634801144_1_alg».proof.Proof.Gen.KernelIdeal.Launch
import proofs.«140430_j87359634801144_1_alg».proof.Proof.Gen.KernelIdeal.Points
import proofs.«140430_j87359634801144_1_alg».proof.Proof.Gen.KernelIdeal.Frame
import proofs.«140430_j87359634801144_1_alg».proof.Proof.Gen.ReferenceIdeal
import proofs.«140430_j87359634801144_1_alg».proof.Proof.Gen.Pre_finite_inputs
import proofs.«140430_j87359634801144_1_alg».proof.Proof.Gen.ReferenceIdeal.Run
import proofs.«140430_j87359634801144_1_alg».proof.Proof.Gen.ReferenceIdeal.Read
import proofs.«140430_j87359634801144_1_alg».proof.Proof.KernelHost
import proofs.«140430_j87359634801144_1_alg».proof.Proof.RefSide
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result buffer at the scoring network of
    the arguments: the kernel by its run read through the padding, the grid and the final cut; the reference by
    its run read one operation at a time. -/
theorem algebraic : Cert.algebraic_KernelIdeal_ReferenceIdeal := by
  intro m ρ m' ρ' _ hagree
  refine ⟨fun c => Mlp.scores (A := 1000) (Cert.KernelIdeal.Host.x0 m c) (Cert.KernelIdeal.Host.x1 m c)
    (Cert.KernelIdeal.Host.x2 m c) (Cert.KernelIdeal.Host.x3 m c) (Cert.KernelIdeal.Host.x4 m c)
    (Cert.KernelIdeal.Host.x5 m c) (Cert.KernelIdeal.Host.x6 m c) (Cert.KernelIdeal.Host.x7 m c),
    Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v20_eq, Cert.ReferenceIdeal.RefValue.val_main_v20_eq_scores,
    h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
